-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S16384x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S4096x1024 : Shape := ⟨2, ![4096, 1024]⟩
abbrev S1024x4096 : Shape := ⟨2, ![1024, 4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 22
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S4096x2048, .f32⟩
  | .hbm, ⟨12, _⟩ => ⟨S4096, .f32⟩
  | .hbm, ⟨13, _⟩ => ⟨S4096x1024, .f32⟩
  | .hbm, ⟨14, _⟩ => ⟨S4096x1024, .f32⟩
  | .hbm, ⟨15, _⟩ => ⟨S1024x4096, .f32⟩
  | .hbm, ⟨16, _⟩ => ⟨S1024x4096, .bf16⟩
  | .hbm, ⟨17, _⟩ => ⟨S1024x4096, .f32⟩
  | .hbm, ⟨18, _⟩ => ⟨S1024x4096, .bf16⟩
  | .hbm, ⟨19, _⟩ => ⟨S1x4096, .f32⟩
  | .hbm, ⟨20, _⟩ => ⟨S16384x1024, .f32⟩
  | .hbm, ⟨21, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  slices_S4096x2048_S4096x1024_0_0 : S4096x2048.Slices ![0, 0] S4096x1024
  slices_S4096x2048_S4096x1024_0_1024 : S4096x2048.Slices ![0, 1024] S4096x1024
  transposes_S4096x1024_S1024x4096_1_0 : S4096x1024.Transposes [1, 0] S1024x4096
  bitsLt_bf16_f32 : FTy.bits .bf16 < FTy.bits .f32
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S16384x1024.size a
  hwx0_6 : ∀ i : grid0.Coords, EltTy.bits .f32 = 32 ∨ (Rect.block (s := S16384x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S16384x1024.size a
  hwx0_7 : ∀ i : grid0.Coords, EltTy.bits .f32 = 32 ∨ (Rect.block (s := S16384x1024) S128x1024.size (cc0_transform_7 i) (hinb0_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2048 : Shape := ⟨2, ![1024, 2048]⟩
abbrev S1024 : Shape := ⟨1, ![1024]⟩
abbrev S16384x2048 : Shape := ⟨2, ![16384, 2048]⟩
abbrev S4096x2048 : Shape := ⟨2, ![4096, 2048]⟩
abbrev S4096 : Shape := ⟨1, ![4096]⟩
abbrev S2048x4096 : Shape := ⟨2, ![2048, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S16384x2048, .f32⟩
  | .hbm, ⟨12, _⟩ => ⟨S4096x2048, .f32⟩
  | .hbm, ⟨13, _⟩ => ⟨S4096, .f32⟩
  | .hbm, ⟨14, _⟩ => ⟨S2048x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x2048_S2048x4096_S16384x4096_1_0_0_1_n_n_wf : DotDims.WF S16384x2048 S2048x4096 S16384x4096 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf

class Facts : Prop extends Facts₀ where

variable [Facts]
-- ==== Proof.FrameBits.lean ====
/-
  The frame of the LSTM-cell program: run from any memory, every weakly fair execution of @main terminates without
  a fault and leaves the eleven argument arrays as they were.

  @main first builds, on the host, the stacked weights and bias and from them the two transposed halves and the
  bias row; each of these nine operations writes a buffer of its own, never an argument.  The one kernel region
  then walks 128 grid points.  At point `t` the body reads rows `128 t .. 128 t + 127` of `x`, `h` and `c` and the
  three host-made operands whole, and overwrites its two output blocks entirely — it loads each output buffer
  once before storing, but nothing it stores depends on what it loaded there — so what a point leaves in each
  output buffer is a function of the six input blocks alone, and each input buffer still holds its block.
  The arguments `x`, `h`, `c` are only ever copied out of, and the eight weight and bias arguments are touched
  by no window at all.
-/
import proofs.«147108_j33148557590883_1_alg».proof.Proof.Gen.Kernel.Launch
import proofs.«147108_j33148557590883_1_alg».proof.Proof.Gen.Kernel.Skeleton
import proofs.«147108_j33148557590883_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` as the region finds them: the launch contents after the nine host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations write: the nine intermediate results, and nothing else. -/
abbrev hostWritten : List (Ref sig .tc) :=
  [main_v0, main_v1, main_v2, main_v3, main_v4, main_v5, main_v6, main_v7, main_v8]

theorem hostOps0_writes : (hostOps0 : List (HloOp τ sig (Elt F))).Forall fun op =>
    op.writes ⊆ (hostWritten.map (Proc.devRef (τ := τ) .tc)).toFinset := by
  simp only [hostOps0, List.Forall, StableHlo.nary_writes, StableHlo.unary_writes, StableHlo.reshape_writes]
  repeat' apply And.intro
  all_goals
    intro b hb
    rw [Finset.mem_singleton] at hb
    subst hb
    exact List.mem_toFinset.mpr (List.mem_map.mpr ⟨_, by decide, rfl⟩)

/-- A buffer that is none of the nine intermediate results reaches the region as launched. -/
theorem V_kept (c : Dev nD) (r : Ref sig .tc) (hr : r ∉ hostWritten) : V m c r = m ((c : Thread nD τ).loc r) :=
  StableHlo.after_of_writes_sub hostOps0 _ (hostOps0_writes (F := F)) hr

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window's current staging buffer holds its block at every point, whether that point fetched it or
    not (an unfetched window's block index has not moved), for any proof data over `V` that leaves inputs alone.
    One statement per input window: the batch tiles of `x`, `h`, `c`, the two transposed weight halves, the bias row. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output buffer -/

/-- The whole block of a batch tile, of a transposed weight half, of the bias row. -/
abbrev rTile : Rect S128x1024 := Rect.unit (s := S128x1024) ![0, 0] S128x1024.size inb_S128x1024_S128x1024_0_0
abbrev rHalf : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- The hidden-state buffer after the body: its one whole-block store, of the six input blocks. -/
def outH (x0 x1 x2 : Vec F S128x1024 .f32) (x3 x4 : Vec F S1024x4096 .bf16) (x5 : Vec F S1x4096 .f32) : Vec F S128x1024 .f32 :=
  View.canon [⟨rTile, k0_pay3 (View.ld x0 rTile) (View.ld x1 rTile) (View.ld x2 rTile) (View.ld x3 rHalf) (View.ld x4 rHalf) (View.ld x5 rBias)⟩]

/-- The cell-state buffer after the body. -/
def outC (x0 x1 x2 : Vec F S128x1024 .f32) (x3 x4 : Vec F S1024x4096 .bf16) (x5 : Vec F S1x4096 .f32) : Vec F S128x1024 .f32 :=
  View.canon [⟨rTile, k0_pay2 (View.ld x0 rTile) (View.ld x1 rTile) (View.ld x2 rTile) (View.ld x3 rHalf) (View.ld x4 rHalf) (View.ld x5 rBias)⟩]

/-- One whole-block store covers the buffer. -/
theorem cover_tile (p0 : Vec F S128x1024 .f32) (y : S128x1024.Idx) :
    ∃ pc ∈ ([⟨rTile, p0⟩] : List (View.Piece (Elt F) S128x1024 .f32)), y ∈ pc.1.set :=
  View.cover_of_tiled [⟨rTile, p0⟩] S128x1024.size (by rfl) y

/-! ## The body's triple -/

set_option maxHeartbeats 4000000 in
/-- The body on whole staging buffers — the inputs' at contents `x0 … x5`, the outputs' at anything — runs to its
    end, leaving the inputs' as they were and the outputs' at `outH` and `outC` of the inputs'. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile _)
  iexists _; isplitr
  swap; · iexact H7
  ipureintro
  exact View.read_writes_eq_canon _ _ _ (cover_tile _)

/-! ## The pipeline's proof data -/

/-- The proof data of the one pipeline on core `c`: the arrays as the region finds them; after the body at point `t`
    each input buffer at its block and the two output buffers at `outH` and `outC` of the six input blocks; the
    invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outH (iblk m c 0 t) (iblk m c 1 t) (iblk m c 2 t) (iblk m c 3 t) (iblk m c 4 t) (iblk m c 5 t) := by dsimp only [dats]
theorem after7 (c : Dev nD) (t : Fin cfg0.N) : (dats m 0 c).after 7 t
    = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the frame run a staged input's array is as launched: its window never writes back, and no host operation
    wrote it. -/
theorem kept_staged (r : PUnit × MemSt nD τ sig (Elt F)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨((h c).1 0).trans (((dats m 0 c).arrAt_in 0 rfl _).trans ((A_eq m c 0).trans (V_kept m c main_arg0 (by decide)))),
   ((h c).1 1).trans (((dats m 0 c).arrAt_in 1 rfl _).trans ((A_eq m c 1).trans (V_kept m c main_arg1 (by decide)))),
   ((h c).1 2).trans (((dats m 0 c).arrAt_in 2 rfl _).trans ((A_eq m c 2).trans (V_kept m c main_arg2 (by decide))))⟩

/-- After the frame run the eleven arguments are as launched: the three staged ones by `kept_staged`, the eight weight
    and bias arrays because no window holds them and no host operation writes them. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(kept_staged m r h c).1, (kept_staged m r h c).2.1, (kept_staged m r h c).2.2,
   ((h c).2 main_arg3 (Pipeline.mem_restRefs_of main_arg3 (by decide) (by decide))).trans (V_kept m c main_arg3 (by decide)),
   ((h c).2 main_arg4 (Pipeline.mem_restRefs_of main_arg4 (by decide) (by decide))).trans (V_kept m c main_arg4 (by decide)),
   ((h c).2 main_arg5 (Pipeline.mem_restRefs_of main_arg5 (by decide) (by decide))).trans (V_kept m c main_arg5 (by decide)),
   ((h c).2 main_arg6 (Pipeline.mem_restRefs_of main_arg6 (by decide) (by decide))).trans (V_kept m c main_arg6 (by decide)),
   ((h c).2 main_arg7 (Pipeline.mem_restRefs_of main_arg7 (by decide) (by decide))).trans (V_kept m c main_arg7 (by decide)),
   ((h c).2 main_arg8 (Pipeline.mem_restRefs_of main_arg8 (by decide) (by decide))).trans (V_kept m c main_arg8 (by decide)),
   ((h c).2 main_arg9 (Pipeline.mem_restRefs_of main_arg9 (by decide) (by decide))).trans (V_kept m c main_arg9 (by decide)),
   ((h c).2 main_arg10 (Pipeline.mem_restRefs_of main_arg10 (by decide) (by decide))).trans (V_kept m c main_arg10 (by decide))⟩

/-- The frame: every weakly fair execution terminates without a fault and the eleven arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_args m r h c) (run_main m ρ)

end Cert.Kernel.Frm

end
-- ==== Proof.FrameIdeal.lean ====
/-
  The frame of the LSTM-cell program: run from any memory, every weakly fair execution of @main terminates without
  a fault and leaves the eleven argument arrays as they were.

  @main first builds, on the host, the stacked weights and bias and from them the two transposed halves and the
  bias row; each of these nine operations writes a buffer of its own, never an argument.  The one kernel region
  then walks 128 grid points.  At point `t` the body reads rows `128 t .. 128 t + 127` of `x`, `h` and `c` and the
  three host-made operands whole, and overwrites its two output blocks entirely — it loads each output buffer
  once before storing, but nothing it stores depends on what it loaded there — so what a point leaves in each
  output buffer is a function of the six input blocks alone, and each input buffer still holds its block.
  The arguments `x`, `h`, `c` are only ever copied out of, and the eight weight and bias arguments are touched
  by no window at all.
-/
import proofs.«147108_j33148557590883_1_alg».proof.Proof.Gen.KernelIdeal.Launch
import proofs.«147108_j33148557590883_1_alg».proof.Proof.Gen.KernelIdeal.Skeleton
import proofs.«147108_j33148557590883_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` as the region finds them: the launch contents after the nine host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations write: the nine intermediate results, and nothing else. -/
abbrev hostWritten : List (Ref sig .tc) :=
  [main_v0, main_v1, main_v2, main_v3, main_v4, main_v5, main_v6, main_v7, main_v8]

theorem hostOps0_writes : (hostOps0 : List (HloOp τ sig (Elt F))).Forall fun op =>
    op.writes ⊆ (hostWritten.map (Proc.devRef (τ := τ) .tc)).toFinset := by
  simp only [hostOps0, List.Forall, StableHlo.nary_writes, StableHlo.unary_writes, StableHlo.reshape_writes]
  repeat' apply And.intro
  all_goals
    intro b hb
    rw [Finset.mem_singleton] at hb
    subst hb
    exact List.mem_toFinset.mpr (List.mem_map.mpr ⟨_, by decide, rfl⟩)

/-- A buffer that is none of the nine intermediate results reaches the region as launched. -/
theorem V_kept (c : Dev nD) (r : Ref sig .tc) (hr : r ∉ hostWritten) : V m c r = m ((c : Thread nD τ).loc r) :=
  StableHlo.after_of_writes_sub hostOps0 _ (hostOps0_writes (F := F)) hr

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window's current staging buffer holds its block at every point, whether that point fetched it or
    not (an unfetched window's block index has not moved), for any proof data over `V` that leaves inputs alone.
    One statement per input window: the batch tiles of `x`, `h`, `c`, the two transposed weight halves, the bias row. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output buffer -/

/-- The whole block of a batch tile, of a transposed weight half, of the bias row. -/
abbrev rTile : Rect S128x1024 := Rect.unit (s := S128x1024) ![0, 0] S128x1024.size inb_S128x1024_S128x1024_0_0
abbrev rHalf : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- The hidden-state buffer after the body: its one whole-block store, of the six input blocks. -/
def outH (x0 x1 x2 : Vec F S128x1024 .f32) (x3 x4 : Vec F S1024x4096 .bf16) (x5 : Vec F S1x4096 .f32) : Vec F S128x1024 .f32 :=
  View.canon [⟨rTile, k0_pay3 (View.ld x0 rTile) (View.ld x1 rTile) (View.ld x2 rTile) (View.ld x3 rHalf) (View.ld x4 rHalf) (View.ld x5 rBias)⟩]

/-- The cell-state buffer after the body. -/
def outC (x0 x1 x2 : Vec F S128x1024 .f32) (x3 x4 : Vec F S1024x4096 .bf16) (x5 : Vec F S1x4096 .f32) : Vec F S128x1024 .f32 :=
  View.canon [⟨rTile, k0_pay2 (View.ld x0 rTile) (View.ld x1 rTile) (View.ld x2 rTile) (View.ld x3 rHalf) (View.ld x4 rHalf) (View.ld x5 rBias)⟩]

/-- One whole-block store covers the buffer. -/
theorem cover_tile (p0 : Vec F S128x1024 .f32) (y : S128x1024.Idx) :
    ∃ pc ∈ ([⟨rTile, p0⟩] : List (View.Piece (Elt F) S128x1024 .f32)), y ∈ pc.1.set :=
  View.cover_of_tiled [⟨rTile, p0⟩] S128x1024.size (by rfl) y

/-! ## The body's triple -/

set_option maxHeartbeats 4000000 in
/-- The body on whole staging buffers — the inputs' at contents `x0 … x5`, the outputs' at anything — runs to its
    end, leaving the inputs' as they were and the outputs' at `outH` and `outC` of the inputs'. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile _)
  iexists _; isplitr
  swap; · iexact H7
  ipureintro
  exact View.read_writes_eq_canon _ _ _ (cover_tile _)

/-! ## The pipeline's proof data -/

/-- The proof data of the one pipeline on core `c`: the arrays as the region finds them; after the body at point `t`
    each input buffer at its block and the two output buffers at `outH` and `outC` of the six input blocks; the
    invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outH (iblk m c 0 t) (iblk m c 1 t) (iblk m c 2 t) (iblk m c 3 t) (iblk m c 4 t) (iblk m c 5 t) := by dsimp only [dats]
theorem after7 (c : Dev nD) (t : Fin cfg0.N) : (dats m 0 c).after 7 t
    = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the frame run a staged input's array is as launched: its window never writes back, and no host operation
    wrote it. -/
theorem kept_staged (r : PUnit × MemSt nD τ sig (Elt F)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨((h c).1 0).trans (((dats m 0 c).arrAt_in 0 rfl _).trans ((A_eq m c 0).trans (V_kept m c main_arg0 (by decide)))),
   ((h c).1 1).trans (((dats m 0 c).arrAt_in 1 rfl _).trans ((A_eq m c 1).trans (V_kept m c main_arg1 (by decide)))),
   ((h c).1 2).trans (((dats m 0 c).arrAt_in 2 rfl _).trans ((A_eq m c 2).trans (V_kept m c main_arg2 (by decide))))⟩

/-- After the frame run the eleven arguments are as launched: the three staged ones by `kept_staged`, the eight weight
    and bias arrays because no window holds them and no host operation writes them. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(kept_staged m r h c).1, (kept_staged m r h c).2.1, (kept_staged m r h c).2.2,
   ((h c).2 main_arg3 (Pipeline.mem_restRefs_of main_arg3 (by decide) (by decide))).trans (V_kept m c main_arg3 (by decide)),
   ((h c).2 main_arg4 (Pipeline.mem_restRefs_of main_arg4 (by decide) (by decide))).trans (V_kept m c main_arg4 (by decide)),
   ((h c).2 main_arg5 (Pipeline.mem_restRefs_of main_arg5 (by decide) (by decide))).trans (V_kept m c main_arg5 (by decide)),
   ((h c).2 main_arg6 (Pipeline.mem_restRefs_of main_arg6 (by decide) (by decide))).trans (V_kept m c main_arg6 (by decide)),
   ((h c).2 main_arg7 (Pipeline.mem_restRefs_of main_arg7 (by decide) (by decide))).trans (V_kept m c main_arg7 (by decide)),
   ((h c).2 main_arg8 (Pipeline.mem_restRefs_of main_arg8 (by decide) (by decide))).trans (V_kept m c main_arg8 (by decide)),
   ((h c).2 main_arg9 (Pipeline.mem_restRefs_of main_arg9 (by decide) (by decide))).trans (V_kept m c main_arg9 (by decide)),
   ((h c).2 main_arg10 (Pipeline.mem_restRefs_of main_arg10 (by decide) (by decide))).trans (V_kept m c main_arg10 (by decide))⟩

/-- The frame: every weakly fair execution terminates without a fault and the eleven arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_args m r h c) (run_main m ρ)

end Cert.KernelIdeal.Frm

end
-- ==== Proof.Spec.lean ====
/-
  The value both programs compute, written once over whole arrays and read index by index on the extended reals.

  One LSTM cell step over a batch of 16384 rows.  With the four gate matrices stacked row-wise into one
  [4096, 2048] matrix `W` (rows 0..1023 the forget gate, 1024..2047 the update gate, 2048..3071 the candidate,
  3072..4095 the output gate) and the four bias vectors stacked into one [4096] vector `b`, the pre-activation
  of gate row `j` on batch row `i` is

      pre i j = (sum over k < 1024 of x[i,k] * W[j,k]) + (sum over k < 1024 of h[i,k] * W[j,1024+k]) + b[j],

  the input part and the recurrent part of one length-2048 inner product.  The new cell state is
  `sigma(pre i q) * c[i,q] + sigma(pre i (1024+q)) * tanh(pre i (2048+q))` and the new hidden state is
  `tanh(cell) * sigma(pre i (3072+q))`, with `sigma z = 1 / (1 + exp(-z))`.

  The one law of arithmetic the comparison of the two programs needs is that a sum over 2048 terms is the sum
  over the first 1024 plus the sum over the last 1024; on the extended reals this needs only that addition
  is commutative and associative, so no finiteness of the inputs is used anywhere.
-/
import Idealize.ShloMosaic.PureOps.Ideal
import Idealize.ShloMosaic.Lib.ValueIdx
import Idealize.ShloMosaic.Lib.IdealHost
import Mathlib.Algebra.BigOperators.Fin

noncomputable section

open Idealize.ShloMosaic Idealize.ShloMosaic.ValueIdx
open scoped BigOperators

namespace Cert.Lstm

/-- Batch-by-feature arrays: `x`, `h`, `c` and both results. -/
abbrev Rows : Shape := ⟨2, ![16384, 1024]⟩
/-- The four gate matrices stacked by rows. -/
abbrev Stack : Shape := ⟨2, ![4096, 2048]⟩
/-- The four bias vectors stacked. -/
abbrev Bias : Shape := ⟨1, ![4096]⟩

/-- Column `k` of the input half of a stacked row. -/
abbrev lo (k : Fin 1024) : Fin 2048 := ⟨k.val, by omega⟩
/-- Column `k` of the recurrent half of a stacked row. -/
abbrev hi (k : Fin 1024) : Fin 2048 := ⟨1024 + k.val, by omega⟩

/-- Row `q` of gate number `g` (0 forget, 1 update, 2 candidate, 3 output) in the stack. -/
abbrev gate (g : Fin 4) (q : Fin 1024) : Fin 4096 := ⟨g.val * 1024 + q.val, by omega⟩

/-- A sum over 2048 terms is the sum over its first half plus the sum over its second half: addition on the
    extended reals is commutative and associative. -/
theorem sum_halves (f : Fin 2048 → EReal) :
    ∑ k : Fin 2048, f k = (∑ k : Fin 1024, f (lo k)) + ∑ k : Fin 1024, f (hi k) :=
  Fin.sum_univ_add (M := EReal) (a := 1024) (b := 1024) (f : Fin (1024 + 1024) → EReal)

/-- The pre-activation of stacked gate row `j` on batch row `i`: input part, recurrent part, bias. -/
def pre (x h : FVec Ideal Rows .f32) (W : FVec Ideal Stack .f32) (b : FVec Ideal Bias .f32)
    (i : Fin 16384) (j : Fin 4096) : EReal :=
  ((∑ k : Fin 1024, x (ix2 i k) * W (ix2 j (lo k))) + ∑ k : Fin 1024, h (ix2 i k) * W (ix2 j (hi k))) + b (ix1 j)

/-- The new cell state at batch row `i`, feature `q`. -/
def cell (x h c : FVec Ideal Rows .f32) (W : FVec Ideal Stack .f32) (b : FVec Ideal Bias .f32)
    (i : Fin 16384) (q : Fin 1024) : EReal :=
  Ideal.logistic (pre x h W b i (gate 0 q)) * c (ix2 i q)
    + Ideal.logistic (pre x h W b i (gate 1 q)) * Ideal.tanh (pre x h W b i (gate 2 q))

/-- The new hidden state at batch row `i`, feature `q`. -/
def hidden (x h c : FVec Ideal Rows .f32) (W : FVec Ideal Stack .f32) (b : FVec Ideal Bias .f32)
    (i : Fin 16384) (q : Fin 1024) : EReal :=
  Ideal.tanh (cell x h c W b i q) * Ideal.logistic (pre x h W b i (gate 3 q))

/-- The new cell state as a whole array. -/
def cellArr (x h c : FVec Ideal Rows .f32) (W : FVec Ideal Stack .f32) (b : FVec Ideal Bias .f32) :
    FVec Ideal Rows .f32 := fun j => cell x h c W b (j 0) (j 1)

/-- The new hidden state as a whole array. -/
def hiddenArr (x h c : FVec Ideal Rows .f32) (W : FVec Ideal Stack .f32) (b : FVec Ideal Bias .f32) :
    FVec Ideal Rows .f32 := fun j => hidden x h c W b (j 0) (j 1)

/-- The pre-activation as ONE inner product of length 2048 of the row `[x[i,:], h[i,:]]` with stacked row `j`:
    `xh k` is `x[i,k]` on the first half and `h[i,k-1024]` on the second. -/
theorem pre_eq_one_sum (x h : FVec Ideal Rows .f32) (W : FVec Ideal Stack .f32) (b : FVec Ideal Bias .f32)
    (i : Fin 16384) (j : Fin 4096) (xh : Fin 2048 → EReal)
    (hlo : ∀ k : Fin 1024, xh (lo k) = x (ix2 i k)) (hhi : ∀ k : Fin 1024, xh (hi k) = h (ix2 i k)) :
    (∑ k : Fin 2048, xh k * W (ix2 j k)) + b (ix1 j) = pre x h W b i j := by
  unfold pre
  rw [sum_halves]
  simp only [hlo, hhi]

/-- The sigmoid spelt out with the extended reals' quotient and exponential is `Ideal.logistic`, the literal
    `0x3F800000` being the number one. -/
theorem logistic_spelt (z : EReal) :
    Ideal.div (Ideal.ofBits .f32 0x3F800000#32) (Ideal.ofBits .f32 0x3F800000#32 + Ideal.exp (-z)) = Ideal.logistic z := by
  rw [Ideal.ofBits_one_f32]; rfl

end Cert.Lstm

end
-- ==== Proof.KernelPay.lean ====
/-
  The kernel body's arithmetic, read entry by entry on the extended reals.

  The body holds a tile of 128 batch rows.  Its first value is the tile's pre-activations: the product of the
  `x` tile with the transposed input half of the stack, plus the product of the `h` tile with the transposed
  recurrent half, plus the bias row repeated down the tile; a change of float format is the identity here, and a
  matrix product into a zero accumulator is the plain sum of products over the 1024 contracted positions.  The
  cell tile is `sigma(gate 0) * c + sigma(gate 1) * tanh(gate 2)` of the four 1024-wide column slices of the
  pre-activations, and the hidden tile is `tanh(cell) * sigma(gate 3)`.  Whenever the tile's operands are the
  corresponding rows and (transposed) columns of whole arrays `X`, `H`, `C`, `W`, `b`, these are the
  specification's `pre`, `cell`, `hidden` at the tile's row.
-/
import proofs.«147108_j33148557590883_1_alg».proof.Proof.Gen.KernelIdeal.Skeleton
import proofs.«147108_j33148557590883_1_alg».proof.Proof.Spec
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen
open Idealize.ShloMosaic Idealize.ShloMosaic.ValueIdx Cert.Lstm
open scoped BigOperators

/-! ## The tile's matrix product at an entry -/

theorem lhs_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- A [128,1024] by [1024,4096] product into the zero accumulator, at entry `(r, j)`, is the sum over the 1024
    contracted positions of left `(r, k)` times right `(k, j)`. -/
theorem matmul_at (a : FVec Ideal S128x1024 .bf16) (w : FVec Ideal S1024x4096 .bf16) (i : S128x4096.Idx) :
    matmul dot_S128x1024_S1024x4096_S128x4096_1_0_0_1_n_n none a w (constant (F := Ideal) S128x4096 .f32 0x00000000#32) i
      = ∑ k : Fin 1024, a (ix2 (i 0) k) * w (ix2 k (i 1)) := by
  show FloatOps.matmul dot_S128x1024_S1024x4096_S128x4096_1_0_0_1_n_n none a w (constant (F := Ideal) S128x4096 .f32 0x00000000#32) i = _
  rw [Ideal.matmul_constant_zero_apply, ← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx i ((ValueIdx.contrEquiv1 dot_S128x1024_S1024x4096_S128x4096_1_0_0_1_n_n 1024 rfl rfl).symm k) = ix2 (i 0) k := funext fun a => Fin.ext (by
    match a with
    | ⟨0, _⟩ => exact lhs_0 _ _
    | ⟨1, _⟩ => exact (lhs_1 _ _).trans hk)
  have er : dot_S128x1024_S1024x4096_S128x4096_1_0_0_1_n_n.rhsIdx i ((ValueIdx.contrEquiv1 dot_S128x1024_S1024x4096_S128x4096_1_0_0_1_n_n 1024 rfl rfl).symm k) = ix2 k (i 1) := funext fun a => Fin.ext (by
    match a with
    | ⟨0, _⟩ => exact (rhs_0 _ _).trans hk
    | ⟨1, _⟩ => exact rhs_1 _ _)
  rw [el, er]
  rfl

/-- The bias row repeated down the tile, at `(r, j)`, is the row's entry `j`. -/
theorem bias_row_at (b5 : Vec Ideal S1x4096 .f32) (r : Fin 128) (j : Fin 4096) :
    broadcastTo S128x4096 (shapeCast S1x4096 b5 shapeCasts_S1x4096_S1x4096) broadcasts_S1x4096_S128x4096 (ix2 r j)
      = b5 (ix2 (0 : Fin 1) j) := by
  rw [shapeCast_self]
  exact broadcastTo_apply b5 broadcasts_S1x4096_S128x4096 (ix2 r j) (ix2 (0 : Fin 1) j) (fun a => match a with
    | ⟨0, _⟩ => by show 0 = if (1 : Nat) = 1 then 0 else _; rw [if_pos rfl]
    | ⟨1, _⟩ => by show j.val = if (4096 : Nat) = 1 then 0 else j.val; rw [if_neg (by decide)])

/-- The tile's pre-activations at `(r, j)`. -/
theorem pay1_at (x0 x1 : Vec Ideal S128x1024 .f32) (w3 w4 : Vec Ideal S1024x4096 .bf16) (b5 : Vec Ideal S1x4096 .f32)
    (r : Fin 128) (j : Fin 4096) :
    k0_pay1 (F := Ideal) x0 x1 w3 w4 b5 (ix2 r j)
      = ((∑ k : Fin 1024, x0 (ix2 r k) * w3 (ix2 k j)) + ∑ k : Fin 1024, x1 (ix2 r k) * w4 (ix2 k j)) + b5 (ix2 (0 : Fin 1) j) := by
  unfold k0_pay1
  show (matmul dot_S128x1024_S1024x4096_S128x4096_1_0_0_1_n_n none (truncf .bf16 x0 bitsLt_bf16_f32) (shapeCast S1024x4096 w3 shapeCasts_S1024x4096_S1024x4096) (constant (F := Ideal) S128x4096 .f32 0x00000000#32) (ix2 r j)
      + matmul dot_S128x1024_S1024x4096_S128x4096_1_0_0_1_n_n none (truncf .bf16 x1 bitsLt_bf16_f32) (shapeCast S1024x4096 w4 shapeCasts_S1024x4096_S1024x4096) (constant (F := Ideal) S128x4096 .f32 0x00000000#32) (ix2 r j))
      + broadcastTo S128x4096 (shapeCast S1x4096 b5 shapeCasts_S1x4096_S1x4096) broadcasts_S1x4096_S128x4096 (ix2 r j) = _
  rw [matmul_at, matmul_at, bias_row_at, shapeCast_self, shapeCast_self]
  rfl

/-! ## The four gate slices -/

/-- Gate `g`'s 1024 columns of a [128,4096] tile, at `(r, q)`, is the tile at column `g * 1024 + q`. -/
theorem gate0_at (y : FVec Ideal S128x4096 .f32) (r : Fin 128) (q : Fin 1024) :
    extractStridedSlice S128x1024 ![0, 0] y slices_S128x4096_o0_0_S128x1024 (ix2 r q) = y (ix2 r (gate 0 q)) :=
  extractStridedSlice_apply ![0, 0] y slices_S128x4096_o0_0_S128x1024 (ix2 r q) (ix2 r (gate 0 q)) (fun a => match a with
    | ⟨0, _⟩ => by show r.val = 0 + r.val; omega
    | ⟨1, _⟩ => by show 0 * 1024 + q.val = 0 + q.val; omega)
theorem gate1_at (y : FVec Ideal S128x4096 .f32) (r : Fin 128) (q : Fin 1024) :
    extractStridedSlice S128x1024 ![0, 1024] y slices_S128x4096_o0_1024_S128x1024 (ix2 r q) = y (ix2 r (gate 1 q)) :=
  extractStridedSlice_apply ![0, 1024] y slices_S128x4096_o0_1024_S128x1024 (ix2 r q) (ix2 r (gate 1 q)) (fun a => match a with
    | ⟨0, _⟩ => by show r.val = 0 + r.val; omega
    | ⟨1, _⟩ => by show 1 * 1024 + q.val = 1024 + q.val; omega)
theorem gate2_at (y : FVec Ideal S128x4096 .f32) (r : Fin 128) (q : Fin 1024) :
    extractStridedSlice S128x1024 ![0, 2048] y slices_S128x4096_o0_2048_S128x1024 (ix2 r q) = y (ix2 r (gate 2 q)) :=
  extractStridedSlice_apply ![0, 2048] y slices_S128x4096_o0_2048_S128x1024 (ix2 r q) (ix2 r (gate 2 q)) (fun a => match a with
    | ⟨0, _⟩ => by show r.val = 0 + r.val; omega
    | ⟨1, _⟩ => by show 2 * 1024 + q.val = 2048 + q.val; omega)
theorem gate3_at (y : FVec Ideal S128x4096 .f32) (r : Fin 128) (q : Fin 1024) :
    extractStridedSlice S128x1024 ![0, 3072] y slices_S128x4096_o0_3072_S128x1024 (ix2 r q) = y (ix2 r (gate 3 q)) :=
  extractStridedSlice_apply ![0, 3072] y slices_S128x4096_o0_3072_S128x1024 (ix2 r q) (ix2 r (gate 3 q)) (fun a => match a with
    | ⟨0, _⟩ => by show r.val = 0 + r.val; omega
    | ⟨1, _⟩ => by show 3 * 1024 + q.val = 3072 + q.val; omega)

/-- The cell tile at `(r, q)` from the pre-activation tile. -/
theorem pay2_at (x0 x1 x2 : Vec Ideal S128x1024 .f32) (w3 w4 : Vec Ideal S1024x4096 .bf16) (b5 : Vec Ideal S1x4096 .f32)
    (r : Fin 128) (q : Fin 1024) :
    k0_pay2 (F := Ideal) x0 x1 x2 w3 w4 b5 (ix2 r q)
      = Ideal.logistic (k0_pay1 (F := Ideal) x0 x1 w3 w4 b5 (ix2 r (gate 0 q))) * x2 (ix2 r q)
        + Ideal.logistic (k0_pay1 (F := Ideal) x0 x1 w3 w4 b5 (ix2 r (gate 1 q)))
          * Ideal.tanh (k0_pay1 (F := Ideal) x0 x1 w3 w4 b5 (ix2 r (gate 2 q))) := by
  unfold k0_pay2
  show Ideal.logistic (extractStridedSlice S128x1024 ![0, 0] (k0_pay1 (F := Ideal) x0 x1 w3 w4 b5) slices_S128x4096_o0_0_S128x1024 (ix2 r q)) * x2 (ix2 r q)
      + Ideal.logistic (extractStridedSlice S128x1024 ![0, 1024] (k0_pay1 (F := Ideal) x0 x1 w3 w4 b5) slices_S128x4096_o0_1024_S128x1024 (ix2 r q))
        * Ideal.tanh (extractStridedSlice S128x1024 ![0, 2048] (k0_pay1 (F := Ideal) x0 x1 w3 w4 b5) slices_S128x4096_o0_2048_S128x1024 (ix2 r q)) = _
  rw [gate0_at, gate1_at, gate2_at]

/-- The hidden tile at `(r, q)` from the cell tile and the pre-activation tile. -/
theorem pay3_at (x0 x1 x2 : Vec Ideal S128x1024 .f32) (w3 w4 : Vec Ideal S1024x4096 .bf16) (b5 : Vec Ideal S1x4096 .f32)
    (r : Fin 128) (q : Fin 1024) :
    k0_pay3 (F := Ideal) x0 x1 x2 w3 w4 b5 (ix2 r q)
      = Ideal.tanh (k0_pay2 (F := Ideal) x0 x1 x2 w3 w4 b5 (ix2 r q))
        * Ideal.logistic (k0_pay1 (F := Ideal) x0 x1 w3 w4 b5 (ix2 r (gate 3 q))) := by
  unfold k0_pay3
  show Ideal.tanh (k0_pay2 (F := Ideal) x0 x1 x2 w3 w4 b5 (ix2 r q))
      * Ideal.logistic (extractStridedSlice S128x1024 ![0, 3072] (k0_pay1 (F := Ideal) x0 x1 w3 w4 b5) slices_S128x4096_o0_3072_S128x1024 (ix2 r q)) = _
  rw [gate3_at]

/-! ## The tile against the specification -/

section Against
variable (X H C : FVec Ideal Rows .f32) (W : FVec Ideal Stack .f32) (b : FVec Ideal Bias .f32) (i : Fin 16384)
variable (x0 x1 x2 : Vec Ideal S128x1024 .f32) (w3 w4 : Vec Ideal S1024x4096 .bf16) (b5 : Vec Ideal S1x4096 .f32) (r : Fin 128)
variable (hx : ∀ k : Fin 1024, x0 (ix2 r k) = X (ix2 i k)) (hh : ∀ k : Fin 1024, x1 (ix2 r k) = H (ix2 i k))
variable (hw3 : ∀ (k : Fin 1024) (j : Fin 4096), w3 (ix2 k j) = W (ix2 j (lo k)))
variable (hw4 : ∀ (k : Fin 1024) (j : Fin 4096), w4 (ix2 k j) = W (ix2 j (hi k)))
variable (hb : ∀ j : Fin 4096, b5 (ix2 (0 : Fin 1) j) = b (ix1 j))

include hx hh hw3 hw4 hb in
/-- When tile row `r` of the `x` and `h` operands is row `i` of `X` and `H`, the weight operands are the
    transposed halves of `W` and the bias operand is `b` as a row, the tile's pre-activation at `(r, j)` is the
    specification's at `(i, j)`. -/
theorem pay1_pre (j : Fin 4096) : k0_pay1 (F := Ideal) x0 x1 w3 w4 b5 (ix2 r j) = pre X H W b i j := by
  rw [pay1_at]
  unfold pre
  simp only [hx, hh, hw3, hw4, hb]

include hx hh hw3 hw4 hb in
/-- … and with tile row `r` of the `c` operand row `i` of `C`, the cell tile at `(r, q)` is the specification's. -/
theorem pay2_cell (hc : ∀ q : Fin 1024, x2 (ix2 r q) = C (ix2 i q)) (q : Fin 1024) :
    k0_pay2 (F := Ideal) x0 x1 x2 w3 w4 b5 (ix2 r q) = cell X H C W b i q := by
  rw [pay2_at, pay1_pre X H W b i x0 x1 w3 w4 b5 r hx hh hw3 hw4 hb, pay1_pre X H W b i x0 x1 w3 w4 b5 r hx hh hw3 hw4 hb,
    pay1_pre X H W b i x0 x1 w3 w4 b5 r hx hh hw3 hw4 hb, hc]
  rfl

include hx hh hw3 hw4 hb in
/-- … and the hidden tile at `(r, q)` is the specification's. -/
theorem pay3_hidden (hc : ∀ q : Fin 1024, x2 (ix2 r q) = C (ix2 i q)) (q : Fin 1024) :
    k0_pay3 (F := Ideal) x0 x1 x2 w3 w4 b5 (ix2 r q) = hidden X H C W b i q := by
  rw [pay3_at, pay2_cell X H C W b i x0 x1 x2 w3 w4 b5 r hx hh hw3 hw4 hb hc,
    pay1_pre X H W b i x0 x1 w3 w4 b5 r hx hh hw3 hw4 hb]
  rfl

end Against

end Cert.KernelIdeal.Pay

end
-- ==== Proof.KernelHost.lean ====
/-
  The three operands the host prepares for the kernel, as the region finds them, read entry by entry.

  The host stacks the four gate matrices by rows into one [4096, 2048] array and the four bias vectors into one
  [4096] vector.  The kernel's first weight operand is the first 1024 columns of the stack, transposed (and changed
  to a narrower float format, which on the extended reals is the identity): its entry `(k, j)` is the stack's
  `(j, k)`.  The second is the last 1024 columns, transposed: its entry `(k, j)` is the stack's `(j, 1024 + k)`.
  The bias operand is the stacked vector as one row: its entry `(0, j)` is the vector's `j`.
-/
import proofs.«147108_j33148557590883_1_alg».proof.Proof.FrameIdeal
import proofs.«147108_j33148557590883_1_alg».proof.Proof.Spec
import Idealize.ShloMosaic.Lib.Pipeline.Value
import Idealize.ShloMosaic.Lib.StableHlo.Run

noncomputable section

namespace Cert.KernelIdeal.HostVal

open Cert.KernelIdeal Cert.KernelIdeal.Gen Cert.KernelIdeal.Frm
open Idealize.ShloMosaic Idealize.ShloMosaic.TcCoe Idealize.SL.Sem Idealize.ShloMosaic.StableHlo
open Idealize.ShloMosaic.ValueIdx Cert.Lstm

variable (m : (ℓ : Loc nD τ sig) → Buf (Elt Ideal) ℓ)

/-- The four gate matrices stacked by rows. -/
def stackW (c : Dev nD) : FVec Ideal S4096x2048 .f32 :=
  concatenate S4096x2048 0 [⟨S1024x2048, m ((c : Thread nD τ).loc main_arg3)⟩, ⟨S1024x2048, m ((c : Thread nD τ).loc main_arg5)⟩,
    ⟨S1024x2048, m ((c : Thread nD τ).loc main_arg7)⟩, ⟨S1024x2048, m ((c : Thread nD τ).loc main_arg9)⟩]
    concatenates_S1024x2048_S1024x2048_S1024x2048_S1024x2048_S4096x2048_d0

/-- The four bias vectors stacked. -/
def stackB (c : Dev nD) : FVec Ideal S4096 .f32 :=
  concatenate S4096 0 [⟨S1024, m ((c : Thread nD τ).loc main_arg4)⟩, ⟨S1024, m ((c : Thread nD τ).loc main_arg6)⟩,
    ⟨S1024, m ((c : Thread nD τ).loc main_arg8)⟩, ⟨S1024, m ((c : Thread nD τ).loc main_arg10)⟩]
    concatenates_S1024_S1024_S1024_S1024_S4096_d0

/-- The first weight operand: the stack's first 1024 columns, transposed. -/
theorem V_wx (c : Dev nD) : (V m c main_v5 : S1024x4096.Idx → EReal)
    = truncf .bf16 (transpose S1024x4096 [1, 0] (extractStridedSlice S4096x1024 ![0, 0] (stackW m c) slices_S4096x2048_S4096x1024_0_0) transposes_S4096x1024_S1024x4096_1_0) bitsLt_bf16_f32 := by
  dsimp only [V, hostOps0]
  after_results
  rfl

/-- The second weight operand: the stack's last 1024 columns, transposed. -/
theorem V_wh (c : Dev nD) : (V m c main_v7 : S1024x4096.Idx → EReal)
    = truncf .bf16 (transpose S1024x4096 [1, 0] (extractStridedSlice S4096x1024 ![0, 1024] (stackW m c) slices_S4096x2048_S4096x1024_0_1024) transposes_S4096x1024_S1024x4096_1_0) bitsLt_bf16_f32 := by
  dsimp only [V, hostOps0]
  after_results
  rfl

/-- The bias operand: the stacked vector as one row. -/
theorem V_bias (c : Dev nD) : (V m c main_v8 : S1x4096.Idx → EReal)
    = shapeCast S1x4096 (stackB m c) shapeCasts_S4096_S1x4096 := by
  dsimp only [V, hostOps0]
  after_results
  rfl

/-- Entry `(k, j)` of the first weight operand is the stack's `(j, k)`. -/
theorem wx_at (c : Dev nD) (k : Fin 1024) (j : Fin 4096) :
    (V m c main_v5 : S1024x4096.Idx → EReal) (ix2 k j) = stackW m c (ix2 j (lo k)) := by
  rw [V_wx]
  show transpose S1024x4096 [1, 0] (extractStridedSlice S4096x1024 ![0, 0] (stackW m c) slices_S4096x2048_S4096x1024_0_0) transposes_S4096x1024_S1024x4096_1_0 (ix2 k j) = _
  rw [transpose_apply [1, 0] _ transposes_S4096x1024_S1024x4096_1_0 (ix2 k j) (ix2 j k) (fun b => match b with
    | ⟨0, _⟩ => rfl
    | ⟨1, _⟩ => rfl)]
  exact extractStridedSlice_apply ![0, 0] (stackW m c) slices_S4096x2048_S4096x1024_0_0 (ix2 j k) (ix2 j (lo k)) (fun a => match a with
    | ⟨0, _⟩ => by show j.val = 0 + j.val; omega
    | ⟨1, _⟩ => by show k.val = 0 + k.val; omega)

/-- Entry `(k, j)` of the second weight operand is the stack's `(j, 1024 + k)`. -/
theorem wh_at (c : Dev nD) (k : Fin 1024) (j : Fin 4096) :
    (V m c main_v7 : S1024x4096.Idx → EReal) (ix2 k j) = stackW m c (ix2 j (hi k)) := by
  rw [V_wh]
  show transpose S1024x4096 [1, 0] (extractStridedSlice S4096x1024 ![0, 1024] (stackW m c) slices_S4096x2048_S4096x1024_0_1024) transposes_S4096x1024_S1024x4096_1_0 (ix2 k j) = _
  rw [transpose_apply [1, 0] _ transposes_S4096x1024_S1024x4096_1_0 (ix2 k j) (ix2 j k) (fun b => match b with
    | ⟨0, _⟩ => rfl
    | ⟨1, _⟩ => rfl)]
  exact extractStridedSlice_apply ![0, 1024] (stackW m c) slices_S4096x2048_S4096x1024_0_1024 (ix2 j k) (ix2 j (hi k)) (fun a => match a with
    | ⟨0, _⟩ => by show j.val = 0 + j.val; omega
    | ⟨1, _⟩ => by show 1024 + k.val = 1024 + k.val; omega)

/-- Entry `(0, j)` of the bias operand is the stacked vector's `j`. -/
theorem bias_at (c : Dev nD) (j : Fin 4096) :
    (V m c main_v8 : S1x4096.Idx → EReal) (ix2 (0 : Fin 1) j) = stackB m c (ix1 j) := by
  rw [V_bias]
  exact shapeCast_apply (stackB m c) shapeCasts_S4096_S1x4096 (ix2 (0 : Fin 1) j) (ix1 j) (by
    rw [Shape.rowMajor_val_one, Shape.rowMajor_val_two]
    show j.val = 0 * 4096 + j.val
    omega)

end Cert.KernelIdeal.HostVal

end
-- ==== Proof.KernelValue.lean ====
/-
  From what each grid point writes back to the two whole result arrays.

  Point `t` of the 128 holds batch rows `128 t .. 128 t + 127`: its `x`, `h`, `c` tiles are those rows of the
  arguments, and its three other operands are the host-made arrays whole, at every point.  So by the body's
  arithmetic read entry by entry, what point `t` writes back to the hidden-state array is rows
  `128 t .. 128 t + 127` of the specification's hidden-state array, and likewise for the cell state.  The 128
  row blocks tile the 16384 rows — row `i` lies in block `i / 128` — so after the run each result array IS the
  specification's array of the arguments.
-/
import proofs.«147108_j33148557590883_1_alg».proof.Proof.FrameIdeal
import proofs.«147108_j33148557590883_1_alg».proof.Proof.KernelPay
import proofs.«147108_j33148557590883_1_alg».proof.Proof.KernelHost
import proofs.«147108_j33148557590883_1_alg».proof.Proof.Spec
import Idealize.ShloMosaic.Lib.Pipeline.Value

set_option maxRecDepth 16384

noncomputable section

namespace Cert.KernelIdeal.Val

open Cert.KernelIdeal Cert.KernelIdeal.Gen Cert.KernelIdeal.Frm Cert.KernelIdeal.HostVal
open Idealize.ShloMosaic Idealize.ShloMosaic.TcCoe Idealize.SL.Sem Idealize.ShloMosaic.ValueIdx Cert.Lstm
open Idealize.ShloMosaic.Pipeline (Dat)

variable (m : (ℓ : Loc nD τ sig) → Buf (Elt Ideal) ℓ) (ρ : Dev nD → PrngReg)

/-! ## Where each window's block sits -/

/-- The batch tiles and the two result tiles move one block of 128 rows per point; the three host-made operands stay. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

theorem hz : (![0, 0] : Fin 2 → Nat) = fun _ => 0 := funext fun a => by fin_cases a <;> rfl

/-- Batch row `128 t + r`: row `r` of point `t`'s tile. -/
abbrev row (t : Fin cfg0.N) (r : Fin 128) : Fin 16384 :=
  ⟨t.val * 128 + r.val, by have := lt_of_lt_of_eq t.isLt N_0; omega⟩

/-! ## The blocks the body is handed, at their literal types -/

abbrev tileX (c : Dev nD) (t : Fin cfg0.N) : Vec Ideal S128x1024 .f32 := iblk m c 0 t
abbrev tileH (c : Dev nD) (t : Fin cfg0.N) : Vec Ideal S128x1024 .f32 := iblk m c 1 t
abbrev tileC (c : Dev nD) (t : Fin cfg0.N) : Vec Ideal S128x1024 .f32 := iblk m c 2 t
abbrev opWx (c : Dev nD) (t : Fin cfg0.N) : Vec Ideal S1024x4096 .bf16 := iblk m c 3 t
abbrev opWh (c : Dev nD) (t : Fin cfg0.N) : Vec Ideal S1024x4096 .bf16 := iblk m c 4 t
abbrev opB (c : Dev nD) (t : Fin cfg0.N) : Vec Ideal S1x4096 .f32 := iblk m c 5 t

/-- Row `r` of point `t`'s tile of an argument is row `128 t + r` of the argument as launched. -/
theorem tileX_at (c : Dev nD) (t : Fin cfg0.N) (r : Fin 128) (k : Fin 1024) :
    tileX m c t (ix2 r k) = m ((c : Thread nD τ).loc main_arg0) (ix2 (row t r) k) := by
  obtain ⟨e0, e1⟩ := idx0 t
  refine Eq.trans ?_ (congrFun (V_kept m c main_arg0 (by decide)) (ix2 (row t r) k))
  show V m c main_arg0 (((cfg0.win 0).blk t).view.emb (ix2 r k)) = V m c main_arg0 (ix2 (row t r) k)
  refine congrArg _ (funext fun a => Fin.ext ?_)
  match a with
  | ⟨0, _⟩ => show win0_0.index t (0 : Fin 2) * 128 + 1 * r.val = t.val * 128 + r.val; omega
  | ⟨1, _⟩ => show win0_0.index t (1 : Fin 2) * 1024 + 1 * k.val = k.val; omega
theorem tileH_at (c : Dev nD) (t : Fin cfg0.N) (r : Fin 128) (k : Fin 1024) :
    tileH m c t (ix2 r k) = m ((c : Thread nD τ).loc main_arg1) (ix2 (row t r) k) := by
  obtain ⟨e0, e1⟩ := idx1 t
  refine Eq.trans ?_ (congrFun (V_kept m c main_arg1 (by decide)) (ix2 (row t r) k))
  show V m c main_arg1 (((cfg0.win 1).blk t).view.emb (ix2 r k)) = V m c main_arg1 (ix2 (row t r) k)
  refine congrArg _ (funext fun a => Fin.ext ?_)
  match a with
  | ⟨0, _⟩ => show win0_1.index t (0 : Fin 2) * 128 + 1 * r.val = t.val * 128 + r.val; omega
  | ⟨1, _⟩ => show win0_1.index t (1 : Fin 2) * 1024 + 1 * k.val = k.val; omega
theorem tileC_at (c : Dev nD) (t : Fin cfg0.N) (r : Fin 128) (k : Fin 1024) :
    tileC m c t (ix2 r k) = m ((c : Thread nD τ).loc main_arg2) (ix2 (row t r) k) := by
  obtain ⟨e0, e1⟩ := idx2 t
  refine Eq.trans ?_ (congrFun (V_kept m c main_arg2 (by decide)) (ix2 (row t r) k))
  show V m c main_arg2 (((cfg0.win 2).blk t).view.emb (ix2 r k)) = V m c main_arg2 (ix2 (row t r) k)
  refine congrArg _ (funext fun a => Fin.ext ?_)
  match a with
  | ⟨0, _⟩ => show win0_2.index t (0 : Fin 2) * 128 + 1 * r.val = t.val * 128 + r.val; omega
  | ⟨1, _⟩ => show win0_2.index t (1 : Fin 2) * 1024 + 1 * k.val = k.val; omega

/-- The first weight operand, at every point, is the stack's first half transposed. -/
theorem opWx_at (c : Dev nD) (t : Fin cfg0.N) (k : Fin 1024) (j : Fin 4096) :
    opWx m c t (ix2 k j) = stackW m c (ix2 j (lo k)) := by
  obtain ⟨e0, e1⟩ := idx3 t
  refine Eq.trans ?_ (wx_at m c k j)
  show V m c main_v5 (((cfg0.win 3).blk t).view.emb (ix2 k j)) = V m c main_v5 (ix2 k j)
  refine congrArg _ (funext fun a => Fin.ext ?_)
  match a with
  | ⟨0, _⟩ => show win0_3.index t (0 : Fin 2) * 1024 + 1 * k.val = k.val; omega
  | ⟨1, _⟩ => show win0_3.index t (1 : Fin 2) * 4096 + 1 * j.val = j.val; omega

/-- The second weight operand, at every point, is the stack's second half transposed. -/
theorem opWh_at (c : Dev nD) (t : Fin cfg0.N) (k : Fin 1024) (j : Fin 4096) :
    opWh m c t (ix2 k j) = stackW m c (ix2 j (hi k)) := by
  obtain ⟨e0, e1⟩ := idx4 t
  refine Eq.trans ?_ (wh_at m c k j)
  show V m c main_v7 (((cfg0.win 4).blk t).view.emb (ix2 k j)) = V m c main_v7 (ix2 k j)
  refine congrArg _ (funext fun a => Fin.ext ?_)
  match a with
  | ⟨0, _⟩ => show win0_4.index t (0 : Fin 2) * 1024 + 1 * k.val = k.val; omega
  | ⟨1, _⟩ => show win0_4.index t (1 : Fin 2) * 4096 + 1 * j.val = j.val; omega

/-- The bias operand, at every point, is the stacked bias as a row. -/
theorem opB_at (c : Dev nD) (t : Fin cfg0.N) (j : Fin 4096) :
    opB m c t (ix2 (0 : Fin 1) j) = stackB m c (ix1 j) := by
  obtain ⟨e0, e1⟩ := idx5 t
  refine Eq.trans ?_ (bias_at m c j)
  show V m c main_v8 (((cfg0.win 5).blk t).view.emb (ix2 (0 : Fin 1) j)) = V m c main_v8 (ix2 (0 : Fin 1) j)
  refine congrArg _ (funext fun a => Fin.ext ?_)
  match a with
  | ⟨0, _⟩ => show win0_5.index t (0 : Fin 2) * 1 + 1 * 0 = 0; omega
  | ⟨1, _⟩ => show win0_5.index t (1 : Fin 2) * 4096 + 1 * j.val = j.val; omega

/-! ## What each point writes back -/

/-- The specification's two result arrays of the arguments as launched. -/
abbrev specH (c : Dev nD) : FVec Ideal Rows .f32 :=
  hiddenArr (m ((c : Thread nD τ).loc main_arg0)) (m ((c : Thread nD τ).loc main_arg1)) (m ((c : Thread nD τ).loc main_arg2)) (stackW m c) (stackB m c)
abbrev specC (c : Dev nD) : FVec Ideal Rows .f32 :=
  cellArr (m ((c : Thread nD τ).loc main_arg0)) (m ((c : Thread nD τ).loc main_arg1)) (m ((c : Thread nD τ).loc main_arg2)) (stackW m c) (stackB m c)

/-- Entry `(r, q)` of a result block of point `t` sits at `(128 t + r, q)` of the result array. -/
theorem emb6 (t : Fin cfg0.N) (r : Fin 128) (q : Fin 1024) : ((cfg0.win 6).blk t).view.emb (ix2 r q) = ix2 (row t r) q := by
  obtain ⟨e0, e1⟩ := idx6 t
  refine funext fun a => Fin.ext ?_
  match a with
  | ⟨0, _⟩ => show win0_6.index t (0 : Fin 2) * 128 + 1 * r.val = t.val * 128 + r.val; omega
  | ⟨1, _⟩ => show win0_6.index t (1 : Fin 2) * 1024 + 1 * q.val = q.val; omega
theorem emb7 (t : Fin cfg0.N) (r : Fin 128) (q : Fin 1024) : ((cfg0.win 7).blk t).view.emb (ix2 r q) = ix2 (row t r) q := by
  obtain ⟨e0, e1⟩ := idx7 t
  refine funext fun a => Fin.ext ?_
  match a with
  | ⟨0, _⟩ => show win0_7.index t (0 : Fin 2) * 128 + 1 * r.val = t.val * 128 + r.val; omega
  | ⟨1, _⟩ => show win0_7.index t (1 : Fin 2) * 1024 + 1 * q.val = q.val; omega

/-- Point `t` writes back rows `128 t ..` of the specification's hidden-state array. -/
theorem flushedH_eq (c : Dev nD) (t : Fin cfg0.N) :
    (dats m 0 c).flushed 6 t = ((cfg0.win 6).blk t).view.read (Elt Ideal) (specH m c) := by
  show (cfg0.win 6).cut (grid0.coords t) ((dats m 0 c).after 6 t) = _
  rw [after6]
  unfold outH
  rw [View.canon_unit_zero hz]
  simp only [View.ld_unit_zero (S := S128x1024) hz, View.ld_unit_zero (S := S1024x4096) hz, View.ld_unit_zero (S := S1x4096) hz]
  funext y
  obtain ⟨r, q, rfl⟩ : ∃ (r : Fin 128) (q : Fin 1024), y = ix2 r q := ⟨y 0, y 1, eq_ix2 y⟩
  show k0_pay3 (F := Ideal) (tileX m c t) (tileH m c t) (tileC m c t) (opWx m c t) (opWh m c t) (opB m c t) (ix2 r q)
    = specH m c (((cfg0.win 6).blk t).view.emb (ix2 r q))
  rw [emb6 t r q]
  exact Pay.pay3_hidden (m ((c : Thread nD τ).loc main_arg0)) (m ((c : Thread nD τ).loc main_arg1)) (m ((c : Thread nD τ).loc main_arg2))
    (stackW m c) (stackB m c) (row t r) (tileX m c t) (tileH m c t) (tileC m c t) (opWx m c t) (opWh m c t) (opB m c t) r
    (tileX_at m c t r) (tileH_at m c t r) (opWx_at m c t) (opWh_at m c t) (opB_at m c t) (tileC_at m c t r) q

/-- Point `t` writes back rows `128 t ..` of the specification's cell-state array. -/
theorem flushedC_eq (c : Dev nD) (t : Fin cfg0.N) :
    (dats m 0 c).flushed 7 t = ((cfg0.win 7).blk t).view.read (Elt Ideal) (specC m c) := by
  show (cfg0.win 7).cut (grid0.coords t) ((dats m 0 c).after 7 t) = _
  rw [after7]
  unfold outC
  rw [View.canon_unit_zero hz]
  simp only [View.ld_unit_zero (S := S128x1024) hz, View.ld_unit_zero (S := S1024x4096) hz, View.ld_unit_zero (S := S1x4096) hz]
  funext y
  obtain ⟨r, q, rfl⟩ : ∃ (r : Fin 128) (q : Fin 1024), y = ix2 r q := ⟨y 0, y 1, eq_ix2 y⟩
  show k0_pay2 (F := Ideal) (tileX m c t) (tileH m c t) (tileC m c t) (opWx m c t) (opWh m c t) (opB m c t) (ix2 r q)
    = specC m c (((cfg0.win 7).blk t).view.emb (ix2 r q))
  rw [emb7 t r q]
  exact Pay.pay2_cell (m ((c : Thread nD τ).loc main_arg0)) (m ((c : Thread nD τ).loc main_arg1)) (m ((c : Thread nD τ).loc main_arg2))
    (stackW m c) (stackB m c) (row t r) (tileX m c t) (tileH m c t) (tileC m c t) (opWx m c t) (opWh m c t) (opB m c t) r
    (tileX_at m c t r) (tileH_at m c t r) (opWx_at m c t) (opWh_at m c t) (opB_at m c t) (tileC_at m c t r) q

/-! ## The row blocks tile the array -/

theorem mem_blk6 (t : Fin cfg0.N) (i : S16384x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v9_0).slice (win0_6.rect t)).set ↔ _
  rw [View.set_slice_whole, Rect.mem_set_unit]
  exact Iff.rfl
theorem mem_blk7 (t : Fin cfg0.N) (i : S16384x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v9_1).slice (win0_7.rect t)).set ↔ _
  rw [View.set_slice_whole, Rect.mem_set_unit]
  exact Iff.rfl

/-- Row `i` lies in the block of point `i / 128`. -/
theorem cover6 (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, ht⟩ : ∃ t : Fin cfg0.N, t.val = (i 0).val / 128 :=
    ⟨⟨(i 0).val / 128, by rw [show cfg0.N = 128 from N_0]; omega⟩, rfl⟩
  obtain ⟨e0, e1⟩ := idx6 t
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1024 ≤ (i 1).val ∧ (i 1).val < win0_6.index t (1 : Fin 2) * 1024 + 1024; omega
theorem cover7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  obtain ⟨t, ht⟩ : ∃ t : Fin cfg0.N, t.val = (i 0).val / 128 :=
    ⟨⟨(i 0).val / 128, by rw [show cfg0.N = 128 from N_0]; omega⟩, rfl⟩
  obtain ⟨e0, e1⟩ := idx7 t
  refine ⟨t, flush0_7 t, ?_⟩
  rw [mem_blk7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 1024 ≤ (i 1).val ∧ (i 1).val < win0_7.index t (1 : Fin 2) * 1024 + 1024; omega

/-! ## The arrays after the run -/

theorem finalH (c : Dev nD) : (dats m 0 c).arrAt 6 cfg0.N = specH m c :=
  (dats m 0 c).arrAt_eq_of_cover 6 (specH m c) (fun t _ => flushedH_eq m c t) cover6
theorem finalC (c : Dev nD) : (dats m 0 c).arrAt 7 cfg0.N = specC m c :=
  (dats m 0 c).arrAt_eq_of_cover 7 (specC m c) (fun t _ => flushedC_eq m c t) cover7

/-- Every weakly fair execution of the idealized kernel program terminates with the hidden-state result at the
    specification's hidden-state array of the arguments, the cell-state result at its cell-state array, and the
    arguments unchanged. -/
theorem run : θ_run defs (onTc (τ := τ) (main (F := Ideal))) ⟨m, fun _ => 0, ρ⟩ fun r => ∀ c : Dev nD,
      r.2.mem ((c.tc : Thread nD τ).loc main_v9_0) = specH m c
      ∧ r.2.mem ((c.tc : Thread nD τ).loc main_v9_1) = specC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 6).trans (finalH m c), ((h c).1 7).trans (finalC m c), kept_args m r h c⟩)
    (run_main m ρ)

end Cert.KernelIdeal.Val

end
-- ==== Proof.RefSide.lean ====
/-
  The reference computes the specification.

  The reference forms each batch row's length-2048 vector `[x[i,:], h[i,:]]`, takes ONE inner product of it with
  each stacked gate row, adds the stacked bias, cuts the 4096 pre-activations into the four gates and applies the
  gate functions.  Read at an index: the row vector is `x[i,k]` on its first half and `h[i,k-1024]` on its
  second, so the one sum is the input part plus the recurrent part (a sum over 2048 terms split into its halves);
  the transposed stack read at `(k, j)` is the stack at `(j, k)`; the sigmoid, which the reference spells
  `1 / (1 + exp(-z))`, is that same expression.
-/
import proofs.«147108_j33148557590883_1_alg».proof.Proof.Gen.ReferenceIdeal.Read
import proofs.«147108_j33148557590883_1_alg».proof.Proof.Spec
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx Cert.Lstm
open scoped BigOperators

variable (x0 x1 x2 : (⟨S16384x1024, .f32⟩ : BufTy).Contents (Elt Ideal))
variable (x3 x5 x7 x9 : (⟨S1024x2048, .f32⟩ : BufTy).Contents (Elt Ideal))
variable (x4 x6 x8 x10 : (⟨S1024, .f32⟩ : BufTy).Contents (Elt Ideal))

/-- The first half of row `i` of `[x, h]` is row `i` of `x`. -/
theorem row_lo (i : Fin 16384) (j : Fin 4096) (k : Fin 1024) :
    val_main_v0 (F := Ideal) x0 x1 (lidx_main_v4 (ix2 i j) (lo k)) = x0 (ix2 i k) := by
  unfold val_main_v0
  exact concatenate_pair_apply_left (t := S16384x2048) (s₁ := S16384x1024) (s₂ := S16384x1024) (1 : Fin 2) x0 x1
    concatenates_S16384x1024_S16384x1024_S16384x2048_d1 (lidx_main_v4 (ix2 i j) (lo k)) rfl (ix2 i k) (fun b => match b with
    | ⟨0, _⟩ => rfl
    | ⟨1, _⟩ => rfl)

/-- The second half of row `i` of `[x, h]` is row `i` of `h`. -/
theorem row_hi (i : Fin 16384) (j : Fin 4096) (k : Fin 1024) :
    val_main_v0 (F := Ideal) x0 x1 (lidx_main_v4 (ix2 i j) (hi k)) = x1 (ix2 i k) := by
  unfold val_main_v0
  exact concatenate_pair_apply_right (t := S16384x2048) (s₁ := S16384x1024) (s₂ := S16384x1024) (1 : Fin 2) x0 x1
    concatenates_S16384x1024_S16384x1024_S16384x2048_d1 (lidx_main_v4 (ix2 i j) (hi k)) rfl rfl (ix2 i k) (fun b hb => match b, hb with
    | ⟨0, _⟩, _ => rfl
    | ⟨1, _⟩, hb => absurd rfl hb) (by show k.val + 1024 = 1024 + k.val; omega)

/-- The transposed stack at `(k, j)` is the stack at `(j, k)`. -/
theorem stack_at (i : Fin 16384) (j : Fin 4096) (k : Fin 2048) :
    val_main_v3 (F := Ideal) x3 x5 x7 x9 (ridx_main_v4 (ix2 i j) k) = val_main_v1 (F := Ideal) x3 x5 x7 x9 (ix2 j k) := by
  rw [val_main_v3_apply]
  exact congrArg _ (funext fun a => match a with
    | ⟨0, _⟩ => rfl
    | ⟨1, _⟩ => rfl)

/-- The bias, broadcast over the batch, at `(i, j)` is the stacked bias at `j`. -/
theorem bias_at (i : Fin 16384) (j : Fin 4096) :
    val_main_v6 (F := Ideal) x4 x6 x8 x10 (ix2 i j) = val_main_v2 (F := Ideal) x4 x6 x8 x10 (ix1 j) := by
  rw [val_main_v6_apply, val_main_v5_apply]
  exact congrArg _ (funext fun a => match a with
    | ⟨0, _⟩ => rfl)

/-- The reference's pre-activation array at `(i, j)` is the specification's. -/
theorem pre_at (i : Fin 16384) (j : Fin 4096) :
    val_main_v7 (F := Ideal) x0 x1 x3 x4 x5 x6 x7 x8 x9 x10 (ix2 i j)
      = pre x0 x1 (val_main_v1 (F := Ideal) x3 x5 x7 x9) (val_main_v2 (F := Ideal) x4 x6 x8 x10) i j := by
  rw [val_main_v7_apply, val_main_v4_apply, bias_at]
  simp only [stack_at]
  exact pre_eq_one_sum x0 x1 _ _ i j (fun k => val_main_v0 (F := Ideal) x0 x1 (lidx_main_v4 (ix2 i j) k))
    (row_lo x0 x1 i j) (row_hi x0 x1 i j)

/-- Where each gate's slice reads the pre-activation array. -/
theorem slice0 (i : Fin 16384) (q : Fin 1024) : idx_main_v8 (ix2 i q) = ix2 i (gate 0 q) :=
  funext fun a => match a with
    | ⟨0, _⟩ => rfl
    | ⟨1, _⟩ => Fin.ext (by show q.val = 0 * 1024 + q.val; omega)
theorem slice1 (i : Fin 16384) (q : Fin 1024) : idx_main_v9 (ix2 i q) = ix2 i (gate 1 q) :=
  funext fun a => match a with
    | ⟨0, _⟩ => rfl
    | ⟨1, _⟩ => Fin.ext (by show 1024 + q.val = 1 * 1024 + q.val; omega)
theorem slice2 (i : Fin 16384) (q : Fin 1024) : idx_main_v10 (ix2 i q) = ix2 i (gate 2 q) :=
  funext fun a => match a with
    | ⟨0, _⟩ => rfl
    | ⟨1, _⟩ => Fin.ext (by show 2048 + q.val = 2 * 1024 + q.val; omega)
theorem slice3 (i : Fin 16384) (q : Fin 1024) : idx_main_v11 (ix2 i q) = ix2 i (gate 3 q) :=
  funext fun a => match a with
    | ⟨0, _⟩ => rfl
    | ⟨1, _⟩ => Fin.ext (by show 3072 + q.val = 3 * 1024 + q.val; omega)

/-- The reference's new cell state is the specification's, entry by entry. -/
theorem cell_at (i : Fin 16384) (q : Fin 1024) :
    val_main_v33 (F := Ideal) x0 x1 x2 x3 x4 x5 x6 x7 x8 x9 x10 (ix2 i q)
      = cell x0 x1 x2 (val_main_v1 (F := Ideal) x3 x5 x7 x9) (val_main_v2 (F := Ideal) x4 x6 x8 x10) i q := by
  simp only [val_main_v33_apply, val_main_v31_apply, val_main_v32_apply, val_main_v17_apply, val_main_v16_apply,
    val_main_cst_0_apply, val_main_v15_apply, val_main_v14_apply, val_main_cst_apply, val_main_v13_apply,
    val_main_v12_apply, val_main_v8_apply, val_main_v23_apply, val_main_v22_apply, val_main_cst_2_apply,
    val_main_v21_apply, val_main_v20_apply, val_main_cst_1_apply, val_main_v19_apply, val_main_v18_apply,
    val_main_v9_apply, val_main_v24_apply, val_main_v10_apply, slice0, slice1, slice2, pre_at]
  simp only [Ideal.hostDivf_def, Ideal.addf_def, Ideal.hostUnary_exp_def, Ideal.hostNegf_def, Ideal.negf_def,
    Ideal.ofBits_def, Ideal.mulf_def, Ideal.hostUnary_tanh_def, logistic_spelt]
  rfl

/-- The reference's new hidden state is the specification's, entry by entry. -/
theorem hidden_at (i : Fin 16384) (q : Fin 1024) :
    val_main_v35 (F := Ideal) x0 x1 x2 x3 x4 x5 x6 x7 x8 x9 x10 (ix2 i q)
      = hidden x0 x1 x2 (val_main_v1 (F := Ideal) x3 x5 x7 x9) (val_main_v2 (F := Ideal) x4 x6 x8 x10) i q := by
  rw [val_main_v35_apply, val_main_v34_apply, cell_at]
  simp only [val_main_v30_apply, val_main_v29_apply, val_main_cst_4_apply, val_main_v28_apply, val_main_v27_apply,
    val_main_cst_3_apply, val_main_v26_apply, val_main_v25_apply, val_main_v11_apply, slice3, pre_at]
  simp only [Ideal.hostDivf_def, Ideal.addf_def, Ideal.hostUnary_exp_def, Ideal.hostNegf_def, Ideal.negf_def,
    Ideal.ofBits_def, Ideal.mulf_def, Ideal.hostUnary_tanh_def, logistic_spelt]
  rfl

/-- The reference's two results as whole arrays. -/
theorem cell_eq :
    val_main_v33 (F := Ideal) x0 x1 x2 x3 x4 x5 x6 x7 x8 x9 x10
      = cellArr x0 x1 x2 (val_main_v1 (F := Ideal) x3 x5 x7 x9) (val_main_v2 (F := Ideal) x4 x6 x8 x10) := by
  funext j
  rw [eq_ix2 j]
  exact cell_at x0 x1 x2 x3 x5 x7 x9 x4 x6 x8 x10 (j 0) (j 1)

theorem hidden_eq :
    val_main_v35 (F := Ideal) x0 x1 x2 x3 x4 x5 x6 x7 x8 x9 x10
      = hiddenArr x0 x1 x2 (val_main_v1 (F := Ideal) x3 x5 x7 x9) (val_main_v2 (F := Ideal) x4 x6 x8 x10) := by
  funext j
  rw [eq_ix2 j]
  exact hidden_at x0 x1 x2 x3 x5 x7 x9 x4 x6 x8 x10 (j 0) (j 1)

end Cert.ReferenceIdeal.RefValue

end
-- ==== Proof.lean ====
/-
  The LSTM cell step: the tiled kernel against the plain reference, over the extended reals.

  Both programs compute, for each of 16384 batch rows, the four gates' pre-activations — an inner product of the
  row `[x, h]` (length 2048) with each of the 4096 stacked gate rows, plus the stacked bias — and from them the new
  cell state `sigma(f) * c + sigma(u) * tanh(g)` and the new hidden state `tanh(cell) * sigma(o)`.  The reference
  takes the inner product as one sum of 2048 terms; the kernel, working on 128 rows at a time, takes the `x` part
  and the `h` part as two sums of 1024 terms against the two transposed halves of the stack and adds them.  Those
  agree because a sum over 2048 terms is the sum over its two halves, which on the extended reals needs only
  commutativity and associativity of addition: no use is made of the inputs being finite.  The kernel's change of
  float format for the matrix unit is the identity here, and its sigmoid is the reference's `1 / (1 + exp(-z))`
  by definition.

  The word-level kernel and its idealization have the same text, and their frames (termination, no fault, the
  arguments unchanged) are one argument read at two instances; the reference's frame is its run with the results
  dropped; the idealization rewrote nothing, so `preserves` is trivial.
-/
import proofs.«147108_j33148557590883_1_alg».proof.Defs
import proofs.«147108_j33148557590883_1_alg».proof.Proof.Gen.Kernel
import proofs.«147108_j33148557590883_1_alg».proof.Proof.Gen.KernelIdeal
import proofs.«147108_j33148557590883_1_alg».proof.Proof.Gen.ReferenceIdeal
import proofs.«147108_j33148557590883_1_alg».proof.Proof.Gen.Pre_finite_inputs
import proofs.«147108_j33148557590883_1_alg».proof.Proof.FrameBits
import proofs.«147108_j33148557590883_1_alg».proof.Proof.FrameIdeal
import proofs.«147108_j33148557590883_1_alg».proof.Proof.KernelValue
import proofs.«147108_j33148557590883_1_alg».proof.Proof.RefSide
import Idealize.ShloMosaic.Adequacy
import Idealize.ShloMosaic.Init

noncomputable section

namespace Cert.Proof

open Idealize.ShloMosaic Idealize.SL.Sem

/-- The word-level kernel program runs to its end, faults nowhere and leaves its arguments as they were. -/
theorem frame_kernel : Cert.frame_Kernel := fun m ρ _ => Cert.Kernel.Frm.frame (F := Bits) m ρ

/-- The same of its idealization: the same argument at the extended reals. -/
theorem frame_kernelIdeal : Cert.frame_KernelIdeal := fun m ρ _ => Cert.KernelIdeal.Frm.frame (F := Ideal) m ρ

/-- The reference is host operations only: its run, with the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the eleven arguments both programs end with the specification's hidden-state and
    cell-state arrays of those arguments: the kernel's by its tiles (each point writes its 128 rows, the row blocks
    tile the array), the reference's by reading its operations entry by entry. -/
theorem algebraic : Cert.algebraic_KernelIdeal_ReferenceIdeal := by
  intro m ρ m' ρ' _ hagree
  refine ⟨fun c => Cert.KernelIdeal.Val.specH m c, fun c => Cert.KernelIdeal.Val.specC m c, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v35_eq, Cert.ReferenceIdeal.RefValue.hidden_eq, h0, h1, h2, h3, h4, h5, h6, h7, h8, h9, h10]
    rfl
  · obtain ⟨h0, h1, h2, h3, h4, h5, h6, h7, h8, h9, h10⟩ := hagree c
    rw [Cert.ReferenceIdeal.Read.val_main_v33_eq, Cert.ReferenceIdeal.RefValue.cell_eq, h0, h1, h2, h3, h4, h5, h6, h7, h8, h9, h10]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
